-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x256 : Shape := ⟨3, ![16, 4096, 256]⟩
abbrev S_ : Shape := ⟨0, ![]⟩

class Facts : Prop where
  bcast_S_S16x4096x256 : S_.BroadcastsInDim S16x4096x256 (![] : Fin 0 → Fin S16x4096x256.rank)
  reducesTo_S16x4096x256_S_d0_1_2 : S16x4096x256.ReducesTo [0, 1, 2] S_
  h_S_ : 0 < S_.numel

variable [Facts]

def fn {F : FTy → Type} [FloatOps F] (main_arg0 : FVec F S16x4096x256 .f32) (main_arg1 : FVec F S16x4096x256 .f32) : IVec S_ 1 :=
  let main_v0 : FVec F S16x4096x256 .f32 := Host.absf main_arg0
  let main_cst : FVec F S_ .f32 := constant S_ .f32 0x7F800000#32
  let main_v1 : FVec F S16x4096x256 .f32 := broadcastInDim S16x4096x256 ![] bcast_S_S16x4096x256 main_cst
  let main_v2 : IVec S16x4096x256 1 := cmpf .olt main_v0 main_v1
  let main_c : IVec S_ 1 := constantI S_ 1 1#1
  let main_v3 : IVec S_ 1 := (fun x v => Host.reduce IntOp.andi x v reducesTo_S16x4096x256_S_d0_1_2 h_S_) main_v2 main_c
  let main_v4 : FVec F S16x4096x256 .f32 := Host.absf main_arg1
  let main_cst_0 : FVec F S_ .f32 := constant S_ .f32 0x7F800000#32
  let main_v5 : FVec F S16x4096x256 .f32 := broadcastInDim S16x4096x256 ![] bcast_S_S16x4096x256 main_cst_0
  let main_v6 : IVec S16x4096x256 1 := cmpf .olt main_v4 main_v5
  let main_c_1 : IVec S_ 1 := constantI S_ 1 1#1
  let main_v7 : IVec S_ 1 := (fun x v => Host.reduce IntOp.andi x v reducesTo_S16x4096x256_S_d0_1_2 h_S_) main_v6 main_c_1
  let main_v8 : IVec S_ 1 := andi main_v3 main_v7
  main_v8
-- ==== Kernel.lean ====
abbrev S16x4096x256 : Shape := ⟨3, ![16, 4096, 256]⟩
abbrev S16x4096 : Shape := ⟨2, ![16, 4096]⟩
abbrev S16x256x256 : Shape := ⟨3, ![16, 256, 256]⟩
abbrev S16x256 : Shape := ⟨2, ![16, 256]⟩

abbrev nBuf : Space → Nat
  | .hbm => 3
  | .vmem => 6
  | .smem => 0
  | _ => 0

abbrev bufTy : (tb : Table) → Fin (tcTables nBuf tb) → BufTy
  | .hbm, ⟨0, _⟩ => ⟨S16x4096x256, .f32⟩
  | .hbm, ⟨1, _⟩ => ⟨S16x4096x256, .f32⟩
  | .hbm, ⟨2, _⟩ => ⟨S16x4096, .f32⟩
  | .local _ .vmem, ⟨0, _⟩ => ⟨S16x256x256, .f32⟩
  | .local _ .vmem, ⟨1, _⟩ => ⟨S16x256x256, .f32⟩
  | .local _ .vmem, ⟨2, _⟩ => ⟨S16x256x256, .f32⟩
  | .local _ .vmem, ⟨3, _⟩ => ⟨S16x256x256, .f32⟩
  | .local _ .vmem, ⟨4, _⟩ => ⟨S16x256, .f32⟩
  | .local _ .vmem, ⟨5, _⟩ => ⟨S16x256, .f32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S16x256x256_S16x256x256_0_0_0 : ∀ a, (![0, 0, 0] : Fin 3 → Nat) a + S16x256x256.size a ≤ S16x256x256.size a
  h_S16x256x256 : 0 < S16x256x256.numel
  reduces_S16x256x256_S16x256 : S16x256x256.Reduces [2] S16x256
  inb_S16x256_S16x256_0_0 : ∀ a, (![0, 0] : Fin 2 → Nat) a + S16x256.size a ≤ S16x256.size a
  h_S16x256 : 0 < S16x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256.size a ≤ S16x4096x256.size a
  hwx0_0 : ∀ i : grid0.Coords, EltTy.bits .f32 = 32 ∨ (Rect.block (s := S16x4096x256) S16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x256.size a ≤ S16x4096x256.size a
  hwx0_1 : ∀ i : grid0.Coords, EltTy.bits .f32 = 32 ∨ (Rect.block (s := S16x4096x256) S16x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x4096.size a
  hwx0_2 : ∀ i : grid0.Coords, EltTy.bits .f32 = 32 ∨ (Rect.block (s := S16x4096) S16x256.size (cc0_transform_2 i) (hinb0_2 i)).WholeWords (EltTy.packing .f32)

variable [Facts₀]

abbrev win0_0 : Pipeline.Window sig grid0 :=
  Pipeline.Window.ofSpec (Memref.whole main_arg0) S16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096x256 : Shape := ⟨3, ![16, 4096, 256]⟩
abbrev S_ : Shape := ⟨0, ![]⟩
abbrev S16x4096 : Shape := ⟨2, ![16, 4096]⟩
abbrev S16x4096x1 : Shape := ⟨3, ![16, 4096, 1]⟩

abbrev nBuf : Space → Nat
  | .hbm => 25
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S16x4096x256, .f32⟩
  | .hbm, ⟨2, _⟩ => ⟨S16x4096x256, .f32⟩
  | .hbm, ⟨3, _⟩ => ⟨S_, .f32⟩
  | .hbm, ⟨4, _⟩ => ⟨S16x4096, .f32⟩
  | .hbm, ⟨5, _⟩ => ⟨S16x4096x1, .f32⟩
  | .hbm, ⟨6, _⟩ => ⟨S_, .f32⟩
  | .hbm, ⟨7, _⟩ => ⟨S16x4096x1, .f32⟩
  | .hbm, ⟨8, _⟩ => ⟨S16x4096x1, .f32⟩
  | .hbm, ⟨9, _⟩ => ⟨S16x4096x1, .f32⟩
  | .hbm, ⟨10, _⟩ => ⟨S16x4096x256, .f32⟩
  | .hbm, ⟨11, _⟩ => ⟨S16x4096x256, .f32⟩
  | .hbm, ⟨12, _⟩ => ⟨S16x4096x256, .f32⟩
  | .hbm, ⟨13, _⟩ => ⟨S_, .f32⟩
  | .hbm, ⟨14, _⟩ => ⟨S16x4096, .f32⟩
  | .hbm, ⟨15, _⟩ => ⟨S16x4096x1, .f32⟩
  | .hbm, ⟨16, _⟩ => ⟨S_, .f32⟩
  | .hbm, ⟨17, _⟩ => ⟨S16x4096x1, .f32⟩
  | .hbm, ⟨18, _⟩ => ⟨S16x4096x1, .f32⟩
  | .hbm, ⟨19, _⟩ => ⟨S16x4096x1, .f32⟩
  | .hbm, ⟨20, _⟩ => ⟨S16x4096x256, .f32⟩
  | .hbm, ⟨21, _⟩ => ⟨S16x4096x256, .f32⟩
  | .hbm, ⟨22, _⟩ => ⟨S16x4096x256, .f32⟩
  | .hbm, ⟨23, _⟩ => ⟨S_, .f32⟩
  | .hbm, ⟨24, _⟩ => ⟨S16x4096, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S16x4096x256_S16x4096_d2 : S16x4096x256.ReducesTo [2] S16x4096
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S16x4096x1_S16x4096x256_0_1_2 : S16x4096x1.BroadcastsInDim S16x4096x256 (![0, 1, 2] : Fin 3 → Fin S16x4096x256.rank)

variable [Facts₀]

class Facts : Prop extends Facts₀ where

variable [Facts]
-- ==== Proof.Spec.lean ====
/-
  The mathematics of the row-wise cosine similarity, with no program in sight.

  For arrays `a b : [16, 4096, 256]` of extended reals and a row `i = (p, n)`, write
  `⟨a, b⟩ i = ∑ k, a (p, n, k) · b (p, n, k)` and `ρ a i = rsqrt (max (⟨a, a⟩ i) ε)`, where `ε` is the value of the
  word `0x2B8CBCCC` (about 1e-12, a positive real). Two arrangements of the cosine:

    * `cosine a b i    = ⟨a, b⟩ i · ρ a i · ρ b i`              (the dot product first, the two scalings after),
    * `cosineRows a b i = ∑ k, (a (p,n,k) · ρ a i) · (b (p,n,k) · ρ b i)`   (both rows scaled first, then the dot product).

  On FINITE arrays they agree: every entry is a real, so `⟨a, a⟩ i` is a real, `max` of it with the positive real `ε` is a
  positive real, its `rsqrt` is the real `(√·)⁻¹`, and then the claim is `∑ (x r)(y s) = (∑ x y) r s` in `ℝ`. (At an infinite
  entry the two sides may differ, a product `∞ · 0` being `0` on the extended reals: finiteness is used.)
-/
import Idealize.ShloMosaic.PureOps.Ideal
import Idealize.ShloMosaic.Lib.ValueIdx

noncomputable section

open scoped BigOperators

namespace Cert.RowCosine

open Idealize.ShloMosaic

/-- The argument arrays' shape. -/
abbrev SIn : Shape := ⟨3, ![16, 4096, 256]⟩
/-- The result's shape: one entry per row. -/
abbrev SOut : Shape := ⟨2, ![16, 4096]⟩

/-- Element `k` of row `i = (p, n)`: the index `(p, n, k)`. -/
abbrev rowAt (i : SOut.Idx) (k : Fin 256) : SIn.Idx := fun a => match a with
  | ⟨0, _⟩ => ⟨(i 0).val, (i 0).isLt⟩
  | ⟨1, _⟩ => ⟨(i 1).val, (i 1).isLt⟩
  | ⟨2, _⟩ => ⟨k.val, k.isLt⟩

/-- The floor under a squared norm, as the extended real its word denotes. -/
def eps : EReal := Ideal.ofBits .f32 0x2B8CBCCC#32

/-- The dot product of row `i` of `a` with row `i` of `b`. -/
def rowDot (a b : SIn.Idx → EReal) (i : SOut.Idx) : EReal := ∑ k : Fin 256, a (rowAt i k) * b (rowAt i k)

/-- The reciprocal norm of row `i`, the squared norm floored at `ε`. -/
def invNorm (a : SIn.Idx → EReal) (i : SOut.Idx) : EReal := Ideal.rsqrt (max (rowDot a a i) eps)

/-- The cosine, dot product first. -/
def cosine (a b : SIn.Idx → EReal) : SOut.Idx → EReal := fun i => rowDot a b i * invNorm a i * invNorm b i

/-- The cosine, rows scaled first. -/
def cosineRows (a b : SIn.Idx → EReal) : SOut.Idx → EReal := fun i =>
  ∑ k : Fin 256, (a (rowAt i k) * invNorm a i) * (b (rowAt i k) * invNorm b i)

/-- `ε` is a positive real: the word is a normal number, `9223372 · 2⁻⁶³`. -/
theorem eps_pos : ∃ e : ℝ, 0 < e ∧ eps = (e : EReal) := by
  refine ⟨9223372 * (2 : ℝ) ^ (-63 : ℤ), by positivity, ?_⟩
  unfold eps
  simp [Ideal.ofBits, Ideal.ieee, -EReal.coe_mul]

/-- A finite sum of reals, taken in the extended reals, is the real sum. -/
theorem coe_sum {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- `rsqrt` of a real floored at a positive real is a real. -/
theorem rsqrt_max_real (x e : ℝ) (he : 0 < e) : ∃ r : ℝ, Ideal.rsqrt (max (x : EReal) (e : EReal)) = (r : EReal) := by
  have hm : max (x : EReal) (e : EReal) = ((max x e : ℝ) : EReal) := (EReal.coe_strictMono.monotone.map_max (a := x) (b := e)).symm
  have hpos : 0 < max x e := lt_of_lt_of_le he (le_max_right x e)
  refine ⟨(Real.sqrt (max x e))⁻¹, ?_⟩
  rw [hm, Ideal.rsqrt_coe, if_neg (not_lt.mpr hpos.le), if_neg hpos.ne']

/-- The law in `ℝ`, carried to the extended reals: scaling both rows and then taking the dot product is the dot product
    scaled twice. -/
theorem sum_scaled {ι : Type} [Fintype ι] (f g : ι → ℝ) (r s : ℝ) :
    (∑ k : ι, ((f k : EReal) * (r : EReal)) * ((g k : EReal) * (s : EReal)))
      = (∑ k : ι, (f k : EReal) * (g k : EReal)) * (r : EReal) * (s : EReal) := by
  have h1 : ∀ k : ι, ((f k : EReal) * (r : EReal)) * ((g k : EReal) * (s : EReal)) = (((f k * r) * (g k * s) : ℝ) : EReal) := by
    intro k; simp only [EReal.coe_mul]
  have h2 : ∀ k : ι, (f k : EReal) * (g k : EReal) = ((f k * g k : ℝ) : EReal) := by
    intro k; simp only [EReal.coe_mul]
  simp only [h1, h2, coe_sum, ← EReal.coe_mul]
  congr 1
  rw [Finset.sum_mul, Finset.sum_mul]
  exact Finset.sum_congr rfl fun k _ => by ring

/-- ON FINITE ARRAYS the two arrangements of the cosine agree. -/
theorem cosineRows_eq_cosine (a b : SIn.Idx → EReal) (ha : ∀ j, ∃ r : ℝ, a j = (r : EReal)) (hb : ∀ j, ∃ r : ℝ, b j = (r : EReal)) :
    cosineRows a b = cosine a b := by
  choose fa hfa using ha
  choose fb hfb using hb
  obtain ⟨e, he, hε⟩ := eps_pos
  funext i
  have hna : ∃ r : ℝ, invNorm a i = (r : EReal) := by
    unfold invNorm rowDot
    simp only [hfa, hε, ← EReal.coe_mul, coe_sum]
    exact rsqrt_max_real _ e he
  have hnb : ∃ r : ℝ, invNorm b i = (r : EReal) := by
    unfold invNorm rowDot
    simp only [hfb, hε, ← EReal.coe_mul, coe_sum]
    exact rsqrt_max_real _ e he
  obtain ⟨r, hr⟩ := hna
  obtain ⟨s, hs⟩ := hnb
  unfold cosineRows cosine
  rw [hr, hs]
  unfold rowDot
  simp only [hfa, hfb]
  exact sum_scaled (fun k => fa (rowAt i k)) (fun k => fb (rowAt i k)) r s

end Cert.RowCosine

end
-- ==== Proof.Finite.lean ====
/-
  The precondition says every entry of both arrays is a real number.

  It is `all (|a| < +∞) ∧ all (|b| < +∞)`, each `all` a reduction by `and` over every axis. So every entry `x` has
  `max x (-x) < ⊤`; of the three kinds of extended real, `⊥` and `⊤` have `max x (-x) = ⊤`, which leaves the reals.
-/
import proofs.«179039_j19894288515177_1_alg».proof.Pre_finite_inputs
import Idealize.ShloMosaic.PureOps.Ideal
import Idealize.ShloMosaic.Lib.ReduceAll
import Idealize.ShloMosaic.Lib.ValueIdx

noncomputable section

namespace Cert.Pre_finite_inputs.Finite

open Idealize.ShloMosaic Cert.Pre_finite_inputs

variable [Facts]

instance : Subsingleton S_.Idx := ⟨fun a b => funext fun d => d.elim0⟩

/-- The word `0x7F800000` is `+∞`. -/
theorem ofBits_inf : Ideal.ofBits .f32 0x7F800000#32 = ⊤ := by
  simp [Ideal.ofBits, Ideal.ieee]

/-- An extended real whose absolute value compares below `+∞` is a real. -/
theorem real_of_abs_lt (x : EReal) (h : Ideal.cmp .olt (max x (-x)) (Ideal.ofBits .f32 0x7F800000#32) = 1#1) :
    ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- UNDER THE PRECONDITION every entry of `a` and every entry of `b` is a real. -/
theorem real_of_pre (a b : FVec Ideal S16x4096x256 .f32) (h : fn (F := Ideal) a b = fun _ => 1#1) :
    (∀ j, ∃ r : ℝ, a j = (r : EReal)) ∧ (∀ j, ∃ r : ℝ, b j = (r : EReal)) := by
  have h0 : fn (F := Ideal) a b ValueIdx.ix0 = 1#1 := congrFun h ValueIdx.ix0
  dsimp only [fn] at h0
  obtain ⟨ha, hb⟩ := IntOp.andi_eq_one.1 h0
  exact ⟨fun j => real_of_abs_lt (a j) (Host.reduce_andi_all _ _ _ _ _ ha j),
    fun j => real_of_abs_lt (b j) (Host.reduce_andi_all _ _ _ _ _ hb j)⟩

end Cert.Pre_finite_inputs.Finite

end
-- ==== Proof.RefValue.lean ====
/-
  The reference's result, read index by index, is `cosineRows`: each row of `a` is scaled by its reciprocal norm (the squared
  norm a host sum over the last axis, floored at `ε`, then `rsqrt`, broadcast back along the row), likewise `b`, and the last
  host sum over the last axis adds the products of the scaled entries. The host sums start from the zero word, which adds nothing.
-/
import proofs.«179039_j19894288515177_1_alg».proof.Proof.Gen.ReferenceIdeal.Read
import proofs.«179039_j19894288515177_1_alg».proof.Proof.Spec

noncomputable section

open scoped BigOperators

namespace Cert.ReferenceIdeal.RowValue

open Cert.ReferenceIdeal Cert.ReferenceIdeal.Gen Cert.ReferenceIdeal.Read Idealize.ShloMosaic Cert.RowCosine

/-- The row element the last sum reads at `(i, k)` is `(p, n, k)`. -/
theorem idx17 (i : S16x4096.Idx) (k : Fin 256) : idx_main_v17 i k = rowAt i k := rfl

/-- Through the two broadcasts, the squared norm that scales entry `(p, n, k)` of `a` is row `(p, n)`'s: its element `k'`. -/
theorem idx1 (i : S16x4096.Idx) (k k' : Fin 256) :
    idx_main_v1 (idx_main_v2 (idx_main_v6 (rowAt i k))) k' = rowAt i k' :=
  funext fun a => Fin.ext (by match a with | ⟨0, _⟩ => rfl | ⟨1, _⟩ => rfl | ⟨2, _⟩ => rfl)

/-- The same for `b`. -/
theorem idx9 (i : S16x4096.Idx) (k k' : Fin 256) :
    idx_main_v9 (idx_main_v10 (idx_main_v14 (rowAt i k))) k' = rowAt i k' :=
  funext fun a => Fin.ext (by match a with | ⟨0, _⟩ => rfl | ⟨1, _⟩ => rfl | ⟨2, _⟩ => rfl)

/-- THE REFERENCE'S RESULT is `cosineRows` of its two arguments. -/
theorem result_eq (x0 x1 : (⟨S16x4096x256, .f32⟩ : BufTy).Contents (Elt Ideal)) :
    val_main_v17 (F := Ideal) x0 x1 = cosineRows x0 x1 := by
  funext i
  rw [val_main_v17_apply]
  simp only [val_main_cst_3_apply, val_main_v16_apply, val_main_v7_apply, val_main_v15_apply, val_main_v6_apply,
    val_main_v14_apply, val_main_v5_apply, val_main_v13_apply, val_main_v4_apply, val_main_v12_apply, val_main_v2_apply,
    val_main_v10_apply, val_main_v3_apply, val_main_v11_apply, val_main_cst_0_apply, val_main_cst_2_apply,
    val_main_v1_apply, val_main_v9_apply, val_main_cst_apply, val_main_cst_1_apply, val_main_v0_apply, val_main_v8_apply,
    idx17, idx1, idx9,
    Ideal.ofBits_def, Ideal.mulf_def, Ideal.maximumf_def, Ideal.hostUnary_rsqrt_def, Ideal.ofBits_zero_f32, zero_add]
  rfl

end Cert.ReferenceIdeal.RowValue

end
-- ==== Proof.KernelValue.lean ====
/-
  The kernel's result array is `cosine` of its two argument arrays.

  Grid point `t` (of 16) stages rows `256 t … 256 t + 255` of every batch: blocks `[16, 256, 256]` of `a` and `b`, and writes
  back a block `[16, 256]` of the result. Within the body the three sums over the last axis are the dot products
  `⟨a, b⟩`, `⟨a, a⟩`, `⟨b, b⟩` of the block's row `(p, r)`, and the stored value is `⟨a, b⟩ · rsqrt (max ⟨a, a⟩ ε) · rsqrt (max ⟨b, b⟩ ε)`.
  Row `(p, r)` of block `t` is row `(p, 256 t + r)` of the array, so what point `t` writes back is block `t` of `cosine a b`; the
  16 blocks tile the result (the point covering column `n` is `n / 256`), so the array ends as `cosine a b` everywhere.
-/
import proofs.«179039_j19894288515177_1_alg».proof.Proof.Gen.KernelIdeal.Value
import proofs.«179039_j19894288515177_1_alg».proof.Proof.Spec
import Idealize.ShloMosaic.PureOps.Ideal.Laws
import Idealize.ShloMosaic.Lib.Pipeline.Value

noncomputable section

open scoped BigOperators

namespace Cert.KernelIdeal.RowValue

open Cert.KernelIdeal Cert.KernelIdeal.Gen Cert.KernelIdeal.Value Idealize.ShloMosaic Idealize.ShloMosaic.TcCoe Idealize.SL.Sem
open Idealize.ShloMosaic.Pipeline (Dat)
open Cert.RowCosine

/-! ## One block -/

/-- Element `k` of row `y = (p, r)` of a block: the block index `(p, r, k)`. -/
abbrev blkRowAt (y : S16x256.Idx) (k : Fin 256) : S16x256x256.Idx := fun a => match a with
  | ⟨0, _⟩ => ⟨(y 0).val, (y 0).isLt⟩
  | ⟨1, _⟩ => ⟨(y 1).val, (y 1).isLt⟩
  | ⟨2, _⟩ => ⟨k.val, k.isLt⟩

/-- A sum over the last axis of a block, at row `y`, is the sum over `k` of the block at `(p, r, k)`. -/
theorem lane_sum (src : FVec Ideal S16x256x256 .f32) (h : S16x256x256.Reduces [2] S16x256) (hφ : FKind.Formats .f32)
    (hacc : (0x00000000#32 : BitVec 32) = FKind.add.neutral .f32 hφ) (y : S16x256.Idx) :
    multiReduction .add [2] S16x256 src 0x00000000#32 h hφ hacc y = ∑ k : Fin 256, src (blkRowAt y k) :=
  (Ideal.multiReduction_add_single src 0x00000000#32 h hφ hacc y).trans
    (Finset.sum_congr rfl fun k _ => congrArg src
      (funext fun a => Fin.ext (by match a with | ⟨0, _⟩ => rfl | ⟨1, _⟩ => rfl | ⟨2, _⟩ => rfl)))

/-- The row cosine of two blocks, at row `y` of the block. -/
def blockCosine (P0 P1 : Vec Ideal S16x256x256 .f32) (y : S16x256.Idx) : EReal :=
  (∑ k : Fin 256, P0 (blkRowAt y k) * P1 (blkRowAt y k))
    * Ideal.rsqrt (max (∑ k : Fin 256, P0 (blkRowAt y k) * P0 (blkRowAt y k)) eps)
    * Ideal.rsqrt (max (∑ k : Fin 256, P1 (blkRowAt y k) * P1 (blkRowAt y k)) eps)

/-- WHAT THE BODY LEAVES in the output block, from the two input blocks: their row cosine. -/
theorem E2_eq (P0 P1 : Vec Ideal S16x256x256 .f32) (y : S16x256.Idx) : E2 (F := Ideal) P0 P1 y = blockCosine P0 P1 y := by
  have hy0 : ix2_0 y = y := funext fun a => Fin.ext (by match a with | ⟨0, _⟩ => rfl | ⟨1, _⟩ => rfl)
  have hy1 : ix2_1 y = y := funext fun a => Fin.ext (by match a with | ⟨0, _⟩ => rfl | ⟨1, _⟩ => rfl)
  have hy2 : ix2_2 y = y := funext fun a => Fin.ext (by match a with | ⟨0, _⟩ => rfl | ⟨1, _⟩ => rfl)
  have e0 := lane_sum (mulf (F := Ideal) (s := S16x256x256) (φ := .f32) P0 P1) reduces_S16x256x256_S16x256 (.inl rfl) rfl y
  have e1 := lane_sum (mulf (F := Ideal) (s := S16x256x256) (φ := .f32) P0 P0) reduces_S16x256x256_S16x256 (.inl rfl) rfl y
  have e2 := lane_sum (mulf (F := Ideal) (s := S16x256x256) (φ := .f32) P1 P1) reduces_S16x256x256_S16x256 (.inl rfl) rfl y
  unfold E2
  rw [hy0, hy1, hy2, e0, e1, e2]
  rfl

/-- A block's row cosine is the arrays' at the row the block's row lies on, when the block's rows are the arrays' rows. -/
theorem blockCosine_eq_cosine (P0 P1 : Vec Ideal S16x256x256 .f32) (a b : SIn.Idx → EReal) (y : S16x256.Idx) (i : SOut.Idx)
    (h0 : ∀ k : Fin 256, P0 (blkRowAt y k) = a (rowAt i k)) (h1 : ∀ k : Fin 256, P1 (blkRowAt y k) = b (rowAt i k)) :
    blockCosine P0 P1 y = cosine a b i := by
  unfold blockCosine cosine invNorm rowDot
  simp only [h0, h1]

/-! ## The blocks in the arrays -/

variable (m : (ℓ : Loc nD τ sig) → Buf (Elt Ideal) ℓ) (ρ : Dev nD → PrngReg)

theorem hz3 : (![0, 0, 0] : Fin 3 → Nat) = fun _ => 0 := funext fun a => by fin_cases a <;> rfl

/-- The printed index maps over the 16 points: each window's block `t` starts at row `256 t` of every batch. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = t.val :=
  (by decide +kernel : ∀ t : Fin grid0.N, _)

/-- Entry `(p, r, k)` of `a`'s block at point `t` is entry `(p, 256 t + r, k)` of `a`: the element `k` of the row the output
    block's `(p, r)` lies on. -/
theorem iblk0_row (c : Dev nD) (t : Fin cfg0.N) (j : S16x256.Idx) (k : Fin 256) :
    (iblk m c 0 t : Vec Ideal S16x256x256 .f32) (blkRowAt j k)
      = (V m c main_arg0 : SIn.Idx → EReal) (rowAt (((cfg0.win 2).blk t).view.emb j) k) := by
  obtain ⟨a0, a1, a2, -, -, -, o0, o1⟩ := idx_facts t
  unfold iblk
  rw [View.read_apply]
  show V m c main_arg0 _ = V m c main_arg0 _
  congr 1
  funext a
  apply Fin.ext
  match a with
  | ⟨0, _⟩ => show win0_0.index t (0 : Fin 3) * 16 + 1 * (j 0).val = win0_2.index t (0 : Fin 2) * 16 + 1 * (j 0).val; rw [a0, o0]
  | ⟨1, _⟩ => show win0_0.index t (1 : Fin 3) * 256 + 1 * (j 1).val = win0_2.index t (1 : Fin 2) * 256 + 1 * (j 1).val; rw [a1, o1]
  | ⟨2, _⟩ => show win0_0.index t (2 : Fin 3) * 256 + 1 * k.val = k.val; rw [a2]; omega

/-- The same for `b`. -/
theorem iblk1_row (c : Dev nD) (t : Fin cfg0.N) (j : S16x256.Idx) (k : Fin 256) :
    (iblk m c 1 t : Vec Ideal S16x256x256 .f32) (blkRowAt j k)
      = (V m c main_arg1 : SIn.Idx → EReal) (rowAt (((cfg0.win 2).blk t).view.emb j) k) := by
  obtain ⟨-, -, -, a0, a1, a2, o0, o1⟩ := idx_facts t
  unfold iblk
  rw [View.read_apply]
  show V m c main_arg1 _ = V m c main_arg1 _
  congr 1
  funext a
  apply Fin.ext
  match a with
  | ⟨0, _⟩ => show win0_1.index t (0 : Fin 3) * 16 + 1 * (j 0).val = win0_2.index t (0 : Fin 2) * 16 + 1 * (j 0).val; rw [a0, o0]
  | ⟨1, _⟩ => show win0_1.index t (1 : Fin 3) * 256 + 1 * (j 1).val = win0_2.index t (1 : Fin 2) * 256 + 1 * (j 1).val; rw [a1, o1]
  | ⟨2, _⟩ => show win0_1.index t (2 : Fin 3) * 256 + 1 * k.val = k.val; rw [a2]; omega

/-- WHAT POINT `t` WRITES BACK is block `t` of `cosine` of the argument arrays. -/
theorem flushed_eq (c : Dev nD) (t : Fin cfg0.N) :
    (dats m 0 c).flushed 2 t
      = ((cfg0.win 2).blk t).view.read (Elt Ideal) (cosine (V m c main_arg0) (V m c main_arg1)) := by
  rw [flushed2]
  unfold out0_2
  simp only [View.ld_unit_zero (S := S16x256x256) hz3]
  funext j
  refine (canon2_eq (F := Ideal) (iblk m c 0 t) (iblk m c 1 t) j).trans ?_
  refine (E2_eq (iblk m c 0 t) (iblk m c 1 t) j).trans ?_
  rw [View.read_apply]
  exact blockCosine_eq_cosine (iblk m c 0 t) (iblk m c 1 t) (V m c main_arg0) (V m c main_arg1) j
    (((cfg0.win 2).blk t).view.emb j) (iblk0_row m c t j) (iblk1_row m c t j)

/-! ## The whole array -/

/-- An index of the result is in point `t`'s block iff each coordinate is in the block's range on its axis. -/
theorem mem_blk (t : Fin cfg0.N) (i : S16x4096.Idx) :
    i ∈ ((cfg0.win 2).blk t).view.set ↔ ∀ a : Fin 2, win0_2.index t a * S16x256.size a ≤ (i a).val ∧ (i a).val < win0_2.index t a * S16x256.size a + S16x256.size a := by
  show i ∈ ((View.whole main_v0).slice (win0_2.rect t)).set ↔ _
  rw [View.set_slice_whole, Rect.mem_set_unit]
  exact Iff.rfl

/-- Every index of the result is in some point's block: column `n` in point `n / 256`'s. -/
theorem cover (i : S16x4096.Idx) : ∃ t : Fin cfg0.N, (cfg0.win 2).flush t = true ∧ i ∈ ((cfg0.win 2).blk t).view.set := by
  have hi0 : (i 0).val < 16 := (i 0).isLt
  have hi1 : (i 1).val < 4096 := (i 1).isLt
  have hN : cfg0.N = 16 := N_0
  let t : Fin cfg0.N := ⟨(i 1).val / 256, by rw [hN]; omega⟩
  obtain ⟨-, -, -, -, -, -, o0, o1⟩ := idx_facts t
  have ht : t.val = (i 1).val / 256 := rfl
  refine ⟨t, flush0_2 t, ?_⟩
  rw [mem_blk]
  intro a
  match a with
  | ⟨0, _⟩ => show win0_2.index t (0 : Fin 2) * 16 ≤ (i 0).val ∧ (i 0).val < win0_2.index t (0 : Fin 2) * 16 + 16; rw [o0]; omega
  | ⟨1, _⟩ => show win0_2.index t (1 : Fin 2) * 256 ≤ (i 1).val ∧ (i 1).val < win0_2.index t (1 : Fin 2) * 256 + 256; rw [o1, ht]; omega

/-- THE RESULT ARRAY after the run is `cosine` of the argument arrays. -/
theorem final (c : Dev nD) :
    (dats m 0 c).arrAt 2 cfg0.N = cosine (m ((c : Thread nD τ).loc main_arg0)) (m ((c : Thread nD τ).loc main_arg1)) :=
  (dats m 0 c).arrAt_eq_of_cover 2 (cosine (V m c main_arg0) (V m c main_arg1)) (fun t _ => flushed_eq m c t) cover

/-- The run, read: the result at `cosine` of the arguments, the arguments unchanged. -/
theorem run : θ_run defs (onTc (τ := τ) (main (F := Ideal))) ⟨m, fun _ => 0, ρ⟩ fun r => ∀ c : Dev nD,
      r.2.mem ((c : Thread nD τ).loc main_v0) = cosine (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.RowValue

end
-- ==== Proof.lean ====
/-
  Row-wise cosine similarity of two arrays `a b : f32[16, 4096, 256]`, one value per row `(p, n)`.

  With `⟨x, y⟩ = ∑ k, x (p, n, k) · y (p, n, k)`, `ρ x = rsqrt (max ⟨x, x⟩ ε)` and `ε` the value of the word `0x2B8CBCCC`:
    * the kernel, over 16 grid points of 256 rows each, stores `⟨a, b⟩ · ρ a · ρ b` (`cosine`, Proof/KernelValue.lean);
    * the reference scales both rows first and sums the products, `∑ k, (a_k · ρ a) · (b_k · ρ b)` (`cosineRows`,
      Proof/RefValue.lean).
  The precondition makes every entry a real (Proof/Finite.lean); then `ρ a`, `ρ b` are reals, `ε` being a positive real, and the
  two arrangements agree by distributivity in `ℝ` (Proof/Spec.lean). The idealization rewrote nothing, so `preserves` is `True`.
  The three frames are the generated ones; the reference's is its run with the result dropped.
-/
import proofs.«179039_j19894288515177_1_alg».proof.Defs
import proofs.«179039_j19894288515177_1_alg».proof.Proof.Gen.Kernel
import proofs.«179039_j19894288515177_1_alg».proof.Proof.Gen.Kernel.Skeleton
import proofs.«179039_j19894288515177_1_alg».proof.Proof.Gen.Kernel.Launch
import proofs.«179039_j19894288515177_1_alg».proof.Proof.Gen.Kernel.Points
import proofs.«179039_j19894288515177_1_alg».proof.Proof.Gen.Kernel.Frame
import proofs.«179039_j19894288515177_1_alg».proof.Proof.Gen.KernelIdeal
import proofs.«179039_j19894288515177_1_alg».proof.Proof.Gen.KernelIdeal.Skeleton
import proofs.«179039_j19894288515177_1_alg».proof.Proof.Gen.KernelIdeal.Launch
import proofs.«179039_j19894288515177_1_alg».proof.Proof.Gen.KernelIdeal.Points
import proofs.«179039_j19894288515177_1_alg».proof.Proof.Gen.KernelIdeal.Frame
import proofs.«179039_j19894288515177_1_alg».proof.Proof.Gen.ReferenceIdeal
import proofs.«179039_j19894288515177_1_alg».proof.Proof.Gen.Pre_finite_inputs
import proofs.«179039_j19894288515177_1_alg».proof.Proof.Gen.KernelIdeal.Value
import proofs.«179039_j19894288515177_1_alg».proof.Proof.Gen.ReferenceIdeal.Run
import proofs.«179039_j19894288515177_1_alg».proof.Proof.Gen.ReferenceIdeal.Read
import proofs.«179039_j19894288515177_1_alg».proof.Proof.Spec
import proofs.«179039_j19894288515177_1_alg».proof.Proof.Finite
import proofs.«179039_j19894288515177_1_alg».proof.Proof.RefValue
import proofs.«179039_j19894288515177_1_alg».proof.Proof.KernelValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From finite arguments that agree, the kernel ends at `cosine a b` and the reference at `cosineRows a b`: one array. -/
theorem algebraic : Cert.algebraic_KernelIdeal_ReferenceIdeal := by
  intro m ρ m' ρ' hpre hagree
  refine ⟨_, Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  obtain ⟨ha, hb⟩ := Cert.Pre_finite_inputs.Finite.real_of_pre _ _ (hpre c)
  rw [Cert.ReferenceIdeal.Read.val_main_v17_eq, Cert.ReferenceIdeal.RowValue.result_eq, (hagree c).1, (hagree c).2]
  exact Cert.RowCosine.cosineRows_eq_cosine _ _ ha hb

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
